-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S2048x64x512 .f32) (main_arg1 : FVec F S64x512 .f32) (main_arg2 : FVec F S512x512 .f32) (main_arg3 : FVec F S512x512 .f32) (main_arg4 : FVec F S512 .f32) (main_arg5 : FVec F S512 .f32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S32x64x512 : Shape := ⟨3, ![32, 64, 512]⟩
abbrev S2048x512 : Shape := ⟨2, ![2048, 512]⟩
abbrev S1x1x512 : Shape := ⟨3, ![1, 1, 512]⟩
abbrev S1x64x512 : Shape := ⟨3, ![1, 64, 512]⟩

abbrev nBuf : Space → Nat
  | .hbm => 16
  | .vmem => 7
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S64x512, .f32⟩
  | .hbm, ⟨8, _⟩ => ⟨S1x512, .f32⟩
  | .hbm, ⟨9, _⟩ => ⟨S64x512, .f32⟩
  | .hbm, ⟨10, _⟩ => ⟨S64x512, .f32⟩
  | .hbm, ⟨11, _⟩ => ⟨S512x512, .f32⟩
  | .hbm, ⟨12, _⟩ => ⟨S512x512, .bf16⟩
  | .hbm, ⟨13, _⟩ => ⟨S2048x64x512, .f32⟩
  | .hbm, ⟨14, _⟩ => ⟨S1x64x512, .f32⟩
  | .hbm, ⟨15, _⟩ => ⟨S64x512, .f32⟩
  | .local _ .vmem, ⟨0, _⟩ => ⟨S32x64x512, .f32⟩
  | .local _ .vmem, ⟨1, _⟩ => ⟨S32x64x512, .f32⟩
  | .local _ .vmem, ⟨2, _⟩ => ⟨S512x512, .bf16⟩
  | .local _ .vmem, ⟨3, _⟩ => ⟨S512, .f32⟩
  | .local _ .vmem, ⟨4, _⟩ => ⟨S64x512, .f32⟩
  | .local _ .vmem, ⟨5, _⟩ => ⟨S32x64x512, .f32⟩
  | .local _ .vmem, ⟨6, _⟩ => ⟨S32x64x512, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bitsLt_bf16_f32 : FTy.bits .bf16 < FTy.bits .f32
  inb_S32x64x512_S32x64x512_0_0_0 : ∀ a, (![0, 0, 0] : Fin 3 → Nat) a + S32x64x512.size a ≤ S32x64x512.size a
  h_S32x64x512 : 0 < S32x64x512.numel
  shapeCasts_S32x64x512_S2048x512 : S32x64x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S32x64x512 : S2048x512.ShapeCasts S32x64x512
  inb_S512_S512_0 : ∀ a, (![0] : Fin 1 → Nat) a + S512.size a ≤ S512.size a
  h_S512 : 0 < S512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S512_S1x1x512 : S512.ShapeCasts S1x1x512
  broadcasts_S1x1x512_S32x64x512 : S1x1x512.Broadcasts S32x64x512
  shapeCasts_S64x512_S1x64x512 : S64x512.ShapeCasts S1x64x512
  broadcasts_S1x64x512_S32x64x512 : S1x64x512.Broadcasts S32x64x512
  slices_S2048x64x512_S1x64x512_2047_0_0 : S2048x64x512.Slices ![2047, 0, 0] S1x64x512
  shapeCasts_S1x64x512_S64x512 : S1x64x512.ShapeCasts S64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S2048x64x512.size a
  hwx0_0 : ∀ i : grid0.Coords, EltTy.bits .f32 = 32 ∨ (Rect.block (s := S2048x64x512) S32x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x512.size a ≤ S2048x64x512.size a
  hwx0_4 : ∀ i : grid0.Coords, EltTy.bits .f32 = 32 ∨ (Rect.block (s := S2048x64x512) S32x64x512.size (cc0_transform_4 i) (hinb0_4 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x1x512 : Shape := ⟨3, ![1, 1, 512]⟩
abbrev S1x512 : Shape := ⟨2, ![1, 512]⟩
abbrev S1x64x512 : Shape := ⟨3, ![1, 64, 512]⟩

abbrev nBuf : Space → Nat
  | .hbm => 21
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S2048x64x512, .f32⟩
  | .hbm, ⟨7, _⟩ => ⟨S1x1x512, .f32⟩
  | .hbm, ⟨8, _⟩ => ⟨S2048x64x512, .f32⟩
  | .hbm, ⟨9, _⟩ => ⟨S2048x64x512, .f32⟩
  | .hbm, ⟨10, _⟩ => ⟨S512x512, .f32⟩
  | .hbm, ⟨11, _⟩ => ⟨S64x512, .f32⟩
  | .hbm, ⟨12, _⟩ => ⟨S1x512, .f32⟩
  | .hbm, ⟨13, _⟩ => ⟨S64x512, .f32⟩
  | .hbm, ⟨14, _⟩ => ⟨S64x512, .f32⟩
  | .hbm, ⟨15, _⟩ => ⟨S1x64x512, .f32⟩
  | .hbm, ⟨16, _⟩ => ⟨S2048x64x512, .f32⟩
  | .hbm, ⟨17, _⟩ => ⟨S2048x64x512, .f32⟩
  | .hbm, ⟨18, _⟩ => ⟨S2048x64x512, .f32⟩
  | .hbm, ⟨19, _⟩ => ⟨S1x64x512, .f32⟩
  | .hbm, ⟨20, _⟩ => ⟨S64x512, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S1x64x512_1_2 : S64x512.BroadcastsInDim S1x64x512 (![1, 2] : Fin 2 → Fin S1x64x512.rank)
  bcast_S1x64x512_S2048x64x512_0_1_2 : S1x64x512.BroadcastsInDim S2048x64x512 (![0, 1, 2] : Fin 3 → Fin S2048x64x512.rank)
  slices_S2048x64x512_S1x64x512_2047_0_0 : S2048x64x512.Slices ![2047, 0, 0] S1x64x512
  shapeCasts_S1x64x512_S64x512 : S1x64x512.ShapeCasts S64x512
  dot_S2048x64x512_S512x512_S2048x64x512_2_1_01_0_n_n_wf : DotDims.WF S2048x64x512 S512x512 S2048x64x512 [2] [1] [0, 1] [0] [] []
  dot_S64x512_S512x512_S64x512_1_0_0_1_n_n_wf : DotDims.WF S64x512 S512x512 S64x512 [1] [0] [0] [1] [] []

variable [Facts₀]

def dot_S2048x64x512_S512x512_S2048x64x512_2_1_01_0_n_n : DotDims S2048x64x512 S512x512 S2048x64x512 where
  lhsContracting := [2]
  rhsContracting := [1]
  lhsNonContracting := [0, 1]
  rhsNonContracting := [0]
  lhsBatch := []
  rhsBatch := []
  wf := dot_S2048x64x512_S512x512_S2048x64x512_2_1_01_0_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

class Facts : Prop extends Facts₀ where

variable [Facts]
-- ==== Proof.Spec.lean ====
/-
  What both programs compute, as one function of the argument arrays, index by index.

  The recurrence never updates the hidden state, so every time step sees the same recurrent term
  `uh[b, h] = Σ_k h0[b, k] · U[h, k] + b_h[h]`, and the output at time `t`, batch row `b`, hidden unit `h` is
  `tanh ((Σ_k x[t, b, k] · W[h, k] + b_in[h]) + uh[b, h])` on the extended reals. The recurrent term enters as an
  array of its own: both programs compute it by the same host operations, so nothing here opens it.
-/
import Idealize.ShloMosaic.PureOps.Ideal
import Idealize.ShloMosaic.Lib.ValueIdx

noncomputable section

namespace Cert.Rnn

open Idealize.ShloMosaic Idealize.ShloMosaic.ValueIdx

/-- The input projection at `(t, b, h)`: the row `x[t, b, ·]` against the row `W[h, ·]`. -/
def proj (x : FVec Ideal ⟨3, ![2048, 64, 512]⟩ .f32) (W : FVec Ideal ⟨2, ![512, 512]⟩ .f32)
    (t : Fin 2048) (b : Fin 64) (h : Fin 512) : EReal :=
  ∑ k : Fin 512, x (ix3 t b k) * W (ix2 h k)

/-- One cell of the output: `tanh ((W x_t + b_in) + uh)` at `(t, b, h)`, the sums grouped as both programs group them. -/
def cell (x : FVec Ideal ⟨3, ![2048, 64, 512]⟩ .f32) (W : FVec Ideal ⟨2, ![512, 512]⟩ .f32)
    (ib : FVec Ideal ⟨1, ![512]⟩ .f32) (uh : FVec Ideal ⟨2, ![64, 512]⟩ .f32) :
    FVec Ideal ⟨3, ![2048, 64, 512]⟩ .f32 :=
  fun i => Ideal.tanh ((proj x W (i 0) (i 1) (i 2) + ib (ix1 (i 2))) + uh (ix2 (i 1) (i 2)))

/-- The output at coordinates. -/
theorem cell_ix3 (x : FVec Ideal ⟨3, ![2048, 64, 512]⟩ .f32) (W : FVec Ideal ⟨2, ![512, 512]⟩ .f32)
    (ib : FVec Ideal ⟨1, ![512]⟩ .f32) (uh : FVec Ideal ⟨2, ![64, 512]⟩ .f32) (t : Fin 2048) (b : Fin 64) (h : Fin 512) :
    cell x W ib uh (ix3 t b h) = Ideal.tanh ((proj x W t b h + ib (ix1 h)) + uh (ix2 b h)) := rfl

end Cert.Rnn

end
-- ==== Proof.RefValue.lean ====
/-
  The reference program's first result, read index by index, is the cell function of the specification: its
  `dot_general` contracts `x`'s last axis with `W`'s last axis, its two broadcasts put `b_in` on the last axis and the
  recurrent term on the last two, and its two additions group as `(W x + b_in) + uh`. The recurrent term is left as the
  reference's own stage (the sum of a `dot_general` and a broadcast bias), never opened.
-/
import proofs.«151516_j7318624273023_1_alg».proof.Proof.Gen.ReferenceIdeal.Run
import proofs.«151516_j7318624273023_1_alg».proof.Proof.Gen.ReferenceIdeal.Read
import proofs.«151516_j7318624273023_1_alg».proof.Proof.Spec

noncomputable section

namespace Cert.Rnn.Ref

open Idealize.ShloMosaic Idealize.ShloMosaic.ValueIdx Cert.ReferenceIdeal Cert.ReferenceIdeal.Read

/-- The reference's output stage is the specification's cell function over the reference's recurrent-term stage. -/
theorem out_eq (x : FVec Ideal S2048x64x512 .f32) (ph : FVec Ideal S64x512 .f32) (W U : FVec Ideal S512x512 .f32)
    (hb ib : FVec Ideal S512 .f32) :
    val_main_v12 (F := Ideal) x ph W U hb ib = Cert.Rnn.cell x W ib (val_main_v8 (F := Ideal) ph U hb) := by
  funext i
  obtain ⟨t, b, h, rfl⟩ : ∃ (t : Fin 2048) (b : Fin 64) (h : Fin 512), i = ix3 t b h := ⟨i 0, i 1, i 2, eq_ix3 i⟩
  rw [val_main_v12_apply, val_main_v11_apply, val_main_v3_apply, val_main_v0_apply, val_main_v2_apply, val_main_v1_apply,
    val_main_v10_apply, val_main_v9_apply]
  -- the composed index maps, coordinate by coordinate
  have ex : ∀ k : Fin 512, lidx_main_v0 (ix3 t b h) k = ix3 t b k := fun k => funext fun a => by
    match a with | ⟨0, _⟩ => rfl | ⟨1, _⟩ => rfl | ⟨2, _⟩ => rfl
  have ew : ∀ k : Fin 512, ridx_main_v0 (ix3 t b h) k = ix2 h k := fun k => funext fun a => by
    match a with | ⟨0, _⟩ => rfl | ⟨1, _⟩ => rfl
  have eb : idx_main_v1 (idx_main_v2 (ix3 t b h)) = ix1 h := funext fun a => by
    match a with | ⟨0, _⟩ => rfl
  have eu : idx_main_v9 (idx_main_v10 (ix3 t b h)) = ix2 b h := funext fun a => by
    match a with | ⟨0, _⟩ => rfl | ⟨1, _⟩ => rfl
  simp only [ex, ew, eb, eu]
  rfl

end Cert.Rnn.Ref

end
-- ==== Proof.KernelBody.lean ====
/-
  The kernel body's one store, read at an index of the output block.

  The body flattens the `[32, 64, 512]` block of `x` to `[2048, 512]` (row `a · 64 + b`), multiplies it by the
  `[512, 512]` weight block (already laid out contraction-axis first), folds the product back to `[32, 64, 512]`, adds
  the input bias along the last axis and the recurrent term along the last two, and applies `tanh`. On the extended
  reals the format changes are the identity and the matrix product into a zero accumulator is the plain sum, so at
  `(a, b, h)` the stored value is `tanh ((Σ_k x[a, b, k] · wt[k, h] + bias[h]) + uh[b, h])`.
-/
import proofs.«151516_j7318624273023_1_alg».proof.Proof.Gen.KernelIdeal.Skeleton
import proofs.«151516_j7318624273023_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Rnn.Body

open Idealize.ShloMosaic Idealize.ShloMosaic.ValueIdx Cert.KernelIdeal Cert.KernelIdeal.Gen

/-! ## The matrix product's operand indices, axis by axis -/

theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The matrix product into the zero accumulator, at row `p` and column `h`: the row of the left operand against the
    column of the right one. -/
theorem matmul_ix2 (l : FVec Ideal S2048x512 .bf16) (r : FVec Ideal S512x512 .bf16) (p : Fin 2048) (h : Fin 512) :
    matmul dot_S2048x512_S512x512_S2048x512_1_0_0_1_n_n none l r (constant (F := Ideal) S2048x512 .f32 0x00000000#32) (ix2 p h)
      = ∑ k : Fin 512, l (ix2 p k) * r (ix2 k h) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p h) ((contrEquiv1 dot_S2048x512_S512x512_S2048x512_1_0_0_1_n_n 512 rfl rfl).symm k) = ix2 p k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 p h) ((contrEquiv1 dot_S2048x512_S512x512_S2048x512_1_0_0_1_n_n 512 rfl rfl).symm k) = ix2 k h := funext fun a => Fin.ext (by
    match a with
    | ⟨0, _⟩ => exact (rhs_0 _ _).trans hk
    | ⟨1, _⟩ => exact rhs_1 _ _)
  rw [el, er]

/-! ## The layout operations of the body, each at coordinates -/

/-- Row `a · 64 + b` of the flattened block. -/
def row (a : Fin 32) (b : Fin 64) : Fin 2048 := ⟨a.val * 64 + b.val, by have := a.isLt; have := b.isLt; omega⟩

/-- The flattened, narrowed input block at row `a · 64 + b` is the block at `(a, b, ·)`. -/
theorem flat_ix2 (x0 : Vec Ideal S32x64x512 .f32) (a : Fin 32) (b : Fin 64) (k : Fin 512) :
    shapeCast S2048x512 (truncf (F := Ideal) (φ := .f32) .bf16 x0 bitsLt_bf16_f32) shapeCasts_S32x64x512_S2048x512 (ix2 (row a b) k) = x0 (ix3 a b k) :=
  shapeCast_apply (truncf (F := Ideal) (φ := .f32) .bf16 x0 bitsLt_bf16_f32) shapeCasts_S32x64x512_S2048x512 (ix2 (row a b) k) (ix3 a b k) (by
    rw [Shape.rowMajor_val_three, Shape.rowMajor_val_two]; rfl)

/-- The product folded back to three axes reads row `a · 64 + b`. -/
theorem fold_ix3 (v : FVec Ideal S2048x512 .f32) (a : Fin 32) (b : Fin 64) (h : Fin 512) :
    shapeCast S32x64x512 v shapeCasts_S2048x512_S32x64x512 (ix3 a b h) = v (ix2 (row a b) h) :=
  shapeCast_apply v shapeCasts_S2048x512_S32x64x512 (ix3 a b h) (ix2 (row a b) h) (by
    rw [Shape.rowMajor_val_three, Shape.rowMajor_val_two]; rfl)

/-- The bias broadcast along the last axis. -/
theorem bias_ix3 (x2 : Vec Ideal S512 .f32) (a : Fin 32) (b : Fin 64) (h : Fin 512) :
    broadcastTo S32x64x512 (shapeCast S1x1x512 x2 shapeCasts_S512_S1x1x512) broadcasts_S1x1x512_S32x64x512 (ix3 a b h) = x2 (ix1 h) := by
  refine (broadcastTo_apply _ broadcasts_S1x1x512_S32x64x512 (ix3 a b h) (ix3 (0 : Fin 1) (0 : Fin 1) h) (fun c => ?_)).trans ?_
  · match c with
    | ⟨0, _⟩ => rfl
    | ⟨1, _⟩ => rfl
    | ⟨2, _⟩ => rfl
  · exact shapeCast_apply x2 shapeCasts_S512_S1x1x512 (ix3 (0 : Fin 1) (0 : Fin 1) h) (ix1 h) (by
      rw [Shape.rowMajor_val_three, Shape.rowMajor_val_one]
      show h.val = (0 * 1 + 0) * 512 + h.val
      omega)

/-- The recurrent term broadcast along the last two axes. -/
theorem rec_ix3 (x3 : Vec Ideal S64x512 .f32) (a : Fin 32) (b : Fin 64) (h : Fin 512) :
    broadcastTo S32x64x512 (shapeCast S1x64x512 (shapeCast S64x512 x3 shapeCasts_S64x512_S64x512) shapeCasts_S64x512_S1x64x512)
      broadcasts_S1x64x512_S32x64x512 (ix3 a b h) = x3 (ix2 b h) := by
  refine (broadcastTo_apply _ broadcasts_S1x64x512_S32x64x512 (ix3 a b h) (ix3 (0 : Fin 1) b h) (fun c => ?_)).trans ?_
  · match c with
    | ⟨0, _⟩ => rfl
    | ⟨1, _⟩ => rfl
    | ⟨2, _⟩ => rfl
  · rw [shapeCast_self]
    exact shapeCast_ab_1ab_apply x3 shapeCasts_S64x512_S1x64x512 (0 : Fin 1) b h

/-! ## The store's value -/

/-- The stored value at `(a, b, h)` of the block. -/
theorem pay_ix3 (x0 : Vec Ideal S32x64x512 .f32) (x1 : Vec Ideal S512x512 .bf16) (x2 : Vec Ideal S512 .f32) (x3 : Vec Ideal S64x512 .f32)
    (a : Fin 32) (b : Fin 64) (h : Fin 512) :
    k0_pay1 (F := Ideal) x0 x1 x2 x3 (ix3 a b h)
      = Ideal.tanh (((∑ k : Fin 512, x0 (ix3 a b k) * x1 (ix2 k h)) + x2 (ix1 h)) + x3 (ix2 b h)) := by
  unfold k0_pay1
  show Ideal.tanh ((shapeCast S32x64x512
        (matmul dot_S2048x512_S512x512_S2048x512_1_0_0_1_n_n none (shapeCast S2048x512 (truncf (F := Ideal) (φ := .f32) .bf16 x0 bitsLt_bf16_f32) shapeCasts_S32x64x512_S2048x512)
          (shapeCast S512x512 x1 shapeCasts_S512x512_S512x512) (constant (F := Ideal) S2048x512 .f32 0x00000000#32))
        shapeCasts_S2048x512_S32x64x512 (ix3 a b h)
      + broadcastTo S32x64x512 (shapeCast S1x1x512 x2 shapeCasts_S512_S1x1x512) broadcasts_S1x1x512_S32x64x512 (ix3 a b h))
      + broadcastTo S32x64x512 (shapeCast S1x64x512 (shapeCast S64x512 x3 shapeCasts_S64x512_S64x512) shapeCasts_S64x512_S1x64x512)
          broadcasts_S1x64x512_S32x64x512 (ix3 a b h)) = _
  rw [fold_ix3, matmul_ix2, bias_ix3, rec_ix3, shapeCast_self]
  simp only [flat_ix2]

/-! ## A block's store as a block of the specification -/

/-- Time step `n · 32 + a`: row `a` of the block the grid point `n` works on. -/
def step (n : Fin 64) (a : Fin 32) : Fin 2048 := ⟨n.val * 32 + a.val, by have := n.isLt; have := a.isLt; omega⟩

/-- If the loaded blocks are what the arrays hold under grid point `n` — `x`'s rows `n · 32 …`, the weight matrix
    transposed, the bias and the recurrent term whole — then the stored value at `(a, b, h)` is the specification's
    cell at time step `n · 32 + a`. -/
theorem block_cell (X : FVec Ideal S2048x64x512 .f32) (W : FVec Ideal S512x512 .f32) (B : FVec Ideal S512 .f32)
    (UH : FVec Ideal S64x512 .f32)
    (x0 : Vec Ideal S32x64x512 .f32) (x1 : Vec Ideal S512x512 .bf16) (x2 : Vec Ideal S512 .f32) (x3 : Vec Ideal S64x512 .f32)
    (n : Fin 64)
    (h0 : ∀ (a : Fin 32) (b : Fin 64) (k : Fin 512), x0 (ix3 a b k) = X (ix3 (step n a) b k))
    (h1 : ∀ (k h : Fin 512), x1 (ix2 k h) = W (ix2 h k))
    (h2 : ∀ h : Fin 512, x2 (ix1 h) = B (ix1 h)) (h3 : ∀ (b : Fin 64) (h : Fin 512), x3 (ix2 b h) = UH (ix2 b h))
    (a : Fin 32) (b : Fin 64) (h : Fin 512) :
    k0_pay1 (F := Ideal) x0 x1 x2 x3 (ix3 a b h) = Cert.Rnn.cell X W B UH (ix3 (step n a) b h) := by
  rw [pay_ix3, Cert.Rnn.cell_ix3, h2, h3]
  simp only [h0, h1]
  rfl

end Cert.Rnn.Body

end
-- ==== Proof.KernelValue.lean ====
/-
  What the kernel program leaves in its two results.

  The grid has 64 points; point `n` reads rows `n · 32 … n · 32 + 31` of `x` (axis 0), the whole transposed weight
  matrix, the whole input bias and the whole recurrent term, and writes rows `n · 32 … n · 32 + 31` of the output. So
  the block point `n` writes back is the block of ONE whole-array function — the specification's cell function of the
  arrays as the region finds them — and the 64 blocks tile the output's first axis: the output array ends holding that
  function. The host lines before the region compute the weight matrix transposed and the recurrent term; the two host
  lines after it cut the last time step out of the output.
-/
import proofs.«151516_j7318624273023_1_alg».proof.Proof.Gen.KernelIdeal.Frame
import proofs.«151516_j7318624273023_1_alg».proof.Proof.KernelBody
import Idealize.ShloMosaic.Lib.StableHlo.Run
import Idealize.ShloMosaic.Lib.Pipeline.Value
import Idealize.ShloMosaic.Lib.ValueLayout

set_option maxRecDepth 16384

noncomputable section

namespace Cert.Rnn.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The host lines before the region -/

/-- The six argument arrays on core `c`, as launched, at their literal types. -/
abbrev argX (c : Dev nD) : FVec Ideal S2048x64x512 .f32 := m ((c.tc : Thread nD τ).loc main_arg0)
abbrev argH (c : Dev nD) : FVec Ideal S64x512 .f32 := m ((c.tc : Thread nD τ).loc main_arg1)
abbrev argW (c : Dev nD) : FVec Ideal S512x512 .f32 := m ((c.tc : Thread nD τ).loc main_arg2)
abbrev argU (c : Dev nD) : FVec Ideal S512x512 .f32 := m ((c.tc : Thread nD τ).loc main_arg3)
abbrev argBh (c : Dev nD) : FVec Ideal S512 .f32 := m ((c.tc : Thread nD τ).loc main_arg4)
abbrev argBi (c : Dev nD) : FVec Ideal S512 .f32 := m ((c.tc : Thread nD τ).loc main_arg5)

/-- The recurrent term as the host computes it: `h0 · Uᵀ + b_h`. -/
def uhOf (ph : FVec Ideal S64x512 .f32) (u : FVec Ideal S512x512 .f32) (hb : FVec Ideal S512 .f32) : FVec Ideal S64x512 .f32 :=
  addf (Host.dotGeneral dot_S64x512_S512x512_S64x512_1_0_0_1_n_n none ph
      (transpose S512x512 [1, 0] u transposes_S512x512_S512x512_1_0))
    (broadcastInDim S64x512 ![0, 1] bcast_S1x512_S64x512_0_1 (broadcastInDim S1x512 ![1] bcast_S512_S1x512_1 hb))

/-- The recurrent term of the launch contents on core `c`. -/
def uh (c : Dev nD) : FVec Ideal S64x512 .f32 := uhOf (argH m c) (argU m c) (argBh m c)

/-- The region finds the recurrent term in its fourth operand's array. -/
theorem V_uh (c : Dev nD) : (V m c main_v4 : S64x512.Idx → EReal) = uh m c := by
  show StableHlo.after hostOps0 (fun b => m (c, b)) (Proc.devRef .tc main_v4) = _
  after_results
  rfl

/-- The region finds the weight matrix transposed (and narrowed, which changes nothing on the extended reals) in its
    second operand's array. -/
theorem V_wt (c : Dev nD) : (V m c main_v6 : S512x512.Idx → EReal)
    = truncf (F := Ideal) (φ := .f32) .bf16 (transpose S512x512 [1, 0] (argW m c) transposes_S512x512_S512x512_1_0) bitsLt_bf16_f32 := by
  show StableHlo.after hostOps0 (fun b => m (c, b)) (Proc.devRef .tc main_v6) = _
  after_results

/-- The transposed weight matrix at `(k, h)` is the weight matrix at `(h, k)`. -/
theorem V_wt_ix2 (c : Dev nD) (k h : Fin 512) :
    (V m c main_v6 : S512x512.Idx → EReal) (ix2 k h) = argW m c (ix2 h k) := by
  rw [V_wt]
  exact transpose_ix2_apply (argW m c) transposes_S512x512_S512x512_1_0 k h

/-! ## The output array after the region -/

/-- The whole-array function the output ends holding. -/
def out (c : Dev nD) : FVec Ideal S2048x64x512 .f32 :=
  Cert.Rnn.cell (argX m c) (argW m c) (argBi m c) (uh m c)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input `x` and the output move along axis 0 with the point, every other
    block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- What point `t` writes back is block `t` of the cell function of the arrays as the region finds them. -/
theorem flushed_eq (c : Dev nD) (t : Fin cfg0.N) :
    (dats m 0 c).flushed 4 t = ((cfg0.win 4).blk t).view.read (Elt Ideal) (out m c) := by
  show (cfg0.win 4).cut (grid0.coords t) ((dats m 0 c).after 4 t) = _
  rw [after0_4]
  unfold out0_4
  rw [View.canon_unit_zero hz3]
  simp only [View.ld_unit_zero (S := S32x64x512) hz3, View.ld_unit_zero (S := S512x512) hz2,
    View.ld_unit_zero (S := S512) hz1, View.ld_unit_zero (S := S64x512) hz2]
  obtain ⟨x0, x1, x2, w0, w1, b0, u0, u1, o0, o1, o2⟩ := idx_facts t
  funext j
  obtain ⟨a, b, h, rfl⟩ : ∃ (a : Fin 32) (b : Fin 64) (h : Fin 512), j = ix3 a b h := ⟨j 0, j 1, j 2, eq_ix3 j⟩
  have hemb : ((cfg0.win 4).blk t).view.emb (ix3 a b h) = ix3 (Body.step (t.cast N_0) a) b h := by
    funext d; apply Fin.ext
    match d with
    | ⟨0, _⟩ => show win0_4.index t (0 : Fin 3) * 32 + 1 * a.val = t.val * 32 + a.val; omega
    | ⟨1, _⟩ => show win0_4.index t (1 : Fin 3) * 64 + 1 * b.val = b.val; omega
    | ⟨2, _⟩ => show win0_4.index t (2 : Fin 3) * 512 + 1 * h.val = h.val; omega
  show k0_pay1 (iblk m c 0 t) (iblk m c 1 t) (iblk m c 2 t) (iblk m c 3 t) (ix3 a b h)
    = out m c (((cfg0.win 4).blk t).view.emb (ix3 a b h))
  rw [hemb]
  refine Body.block_cell (argX m c) (argW m c) (argBi m c) (uh m c) (iblk m c 0 t) (iblk m c 1 t) (iblk m c 2 t) (iblk m c 3 t) (t.cast N_0)
    ?_ ?_ ?_ ?_ a b h
  · intro a b k
    show V m c main_arg0 (((cfg0.win 0).blk t).view.emb (ix3 a b k)) = _
    rw [V_main_arg0]
    refine congrArg (argX m c) (funext fun d => Fin.ext ?_)
    match d with
    | ⟨0, _⟩ => show win0_0.index t (0 : Fin 3) * 32 + 1 * a.val = t.val * 32 + a.val; omega
    | ⟨1, _⟩ => show win0_0.index t (1 : Fin 3) * 64 + 1 * b.val = b.val; omega
    | ⟨2, _⟩ => show win0_0.index t (2 : Fin 3) * 512 + 1 * k.val = k.val; omega
  · intro k h
    show (V m c main_v6 : S512x512.Idx → EReal) (((cfg0.win 1).blk t).view.emb (ix2 k h)) = _
    have e : ((cfg0.win 1).blk t).view.emb (ix2 k h) = ix2 k h := by
      funext d; apply Fin.ext
      match d with
      | ⟨0, _⟩ => show win0_1.index t (0 : Fin 2) * 512 + 1 * k.val = k.val; omega
      | ⟨1, _⟩ => show win0_1.index t (1 : Fin 2) * 512 + 1 * h.val = h.val; omega
    rw [e]
    exact V_wt_ix2 m c k h
  · intro h
    show V m c main_arg5 (((cfg0.win 2).blk t).view.emb (ix1 h)) = _
    rw [V_main_arg5]
    refine congrArg (argBi m c) (funext fun d => Fin.ext ?_)
    match d with
    | ⟨0, _⟩ => show win0_2.index t (0 : Fin 1) * 512 + 1 * h.val = h.val; omega
  · intro b h
    show (V m c main_v4 : S64x512.Idx → EReal) (((cfg0.win 3).blk t).view.emb (ix2 b h)) = _
    rw [V_uh]
    refine congrArg (uh m c) (funext fun d => Fin.ext ?_)
    match d with
    | ⟨0, _⟩ => show win0_3.index t (0 : Fin 2) * 64 + 1 * b.val = b.val; omega
    | ⟨1, _⟩ => show win0_3.index t (1 : Fin 2) * 512 + 1 * h.val = h.val; omega

/-- An index of the output is in point `t`'s block iff each coordinate is in the block's range on its axis. -/
theorem mem_blk (t : Fin cfg0.N) (i : S2048x64x512.Idx) :
    i ∈ ((cfg0.win 4).blk t).view.set ↔ ∀ a : Fin 3, win0_4.index t a * S32x64x512.size a ≤ (i a).val
      ∧ (i a).val < win0_4.index t a * S32x64x512.size a + S32x64x512.size a := by
  show i ∈ ((View.whole main_v7).slice (win0_4.rect t)).set ↔ _
  rw [View.set_slice_whole, Rect.mem_set_unit]
  exact Iff.rfl

/-- Every index of the output lies in the block of the point its time step falls under: point `⌊i₀ / 32⌋`. -/
theorem cover (i : S2048x64x512.Idx) :
    ∃ t : Fin cfg0.N, (cfg0.win 4).flush t = true ∧ i ∈ ((cfg0.win 4).blk t).view.set := by
  have hi0 : (i 0).val < 2048 := (i 0).isLt
  have hi1 : (i 1).val < 64 := (i 1).isLt
  have hi2 : (i 2).val < 512 := (i 2).isLt
  have hN : (i 0).val / 32 < grid0.N := by rw [N_0]; omega
  obtain ⟨-, -, -, -, -, -, -, -, o0, o1, o2⟩ := idx_facts ⟨(i 0).val / 32, hN⟩
  have o0' : win0_4.index ⟨(i 0).val / 32, hN⟩ (0 : Fin 3) = (i 0).val / 32 := o0
  refine ⟨⟨(i 0).val / 32, hN⟩, flush0_4 _, ?_⟩
  rw [mem_blk]
  intro a
  match a with
  | ⟨0, _⟩ =>
    show win0_4.index ⟨(i 0).val / 32, hN⟩ (0 : Fin 3) * 32 ≤ (i 0).val
      ∧ (i 0).val < win0_4.index ⟨(i 0).val / 32, hN⟩ (0 : Fin 3) * 32 + 32
    omega
  | ⟨1, _⟩ =>
    show win0_4.index ⟨(i 0).val / 32, hN⟩ (1 : Fin 3) * 64 ≤ (i 1).val
      ∧ (i 1).val < win0_4.index ⟨(i 0).val / 32, hN⟩ (1 : Fin 3) * 64 + 64
    omega
  | ⟨2, _⟩ =>
    show win0_4.index ⟨(i 0).val / 32, hN⟩ (2 : Fin 3) * 512 ≤ (i 2).val
      ∧ (i 2).val < win0_4.index ⟨(i 0).val / 32, hN⟩ (2 : Fin 3) * 512 + 512
    omega

/-- The output array after the region is the cell function of the argument arrays. -/
theorem final (c : Dev nD) : (dats m 0 c).arrAt 4 cfg0.N = out m c :=
  (dats m 0 c).arrAt_eq_of_cover 4 (out m c) (fun t _ => flushed_eq m c t) cover

/-! ## The host lines after the region -/

/-- The last time step of an output array, the unit axis dropped: what both programs return as their second result. -/
def lastStep (o : FVec Ideal S2048x64x512 .f32) : FVec Ideal S64x512 .f32 :=
  shapeCast S64x512 (extractStridedSlice S1x64x512 ![2047, 0, 0] o slices_S2048x64x512_S1x64x512_2047_0_0) shapeCasts_S1x64x512_S64x512

/-- The second result after the run: the last time step of the output array. -/
theorem tail_eq (c : Dev nD) :
    Pipeline.afterTail₀ cfgs (dats m) 0 (V0 m) [hostOps1] c main_v9 = lastStep (out m c) := by
  have hw := (Pipeline.withArrays_arr spec0 launch0.win.arr_inj c (V0 m c) (fun w => (dats m 0 c).arrAt w cfg0.N) 4).trans (final m c)
  unfold Pipeline.afterTail₀
  show StableHlo.after hostOps1 _ (Proc.devRef .tc main_v9) = _
  after_results
  exact congrArg lastStep hw

/-! ## The run, read -/

/-- Every weakly fair execution of the kernel program ends with the output array at the cell function of the argument
    arrays, the second result at its last time step, and the arguments unchanged. -/
theorem run : θ_run defs (onTc (τ := τ) (main (F := Ideal))) ⟨m, fun _ => 0, ρ⟩ (fun r => ∀ c : Dev nD,
      r.2.mem ((c.tc : Thread nD τ).loc main_v7) = out m c
      ∧ r.2.mem ((c.tc : Thread nD τ).loc main_v9) = lastStep (out m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final m c),
      ((h c).2 main_v9 (Pipeline.mem_restRefs_of main_v9 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c)))⟩)
    (run_main m ρ)

end Cert.Rnn.Kernel

end
-- ==== Proof.lean ====
/-
  A one-layer recurrent cell whose hidden state is never updated: every time step adds the same recurrent term
  `uh = h0 · Uᵀ + b_h` to its input projection, so the 2048 steps are one batched product
  `out[t, b, h] = tanh ((Σ_k x[t, b, k] · W[h, k] + b_in[h]) + uh[b, h])`, and the returned hidden state is the last step.

  The kernel program computes `uh` and the transposed weight matrix on the host, then runs 64 grid points of 32 time
  steps each, every point one `[2048, 512] × [512, 512]` product of its flattened block of `x`; the reference contracts
  `x`'s last axis with `W`'s last axis in one `dot_general`. On the extended reals the two read, index by index, as the
  same sum grouped the same way, so no finiteness is used: the equality needs only that the kernel's product row
  `a · 64 + b` of block `n` is time step `n · 32 + a`, batch row `b`, and that reading the transposed weights at
  `(k, h)` reads `W` at `(h, k)`. The recurrent term is the same host expression in both programs and is never opened;
  the second result is the same slice of the first in both.

  The ideal pass rewrote nothing, so the idealized kernel is the kernel's own text and `preserves` is trivial.
-/
import proofs.«151516_j7318624273023_1_alg».proof.Defs
import proofs.«151516_j7318624273023_1_alg».proof.Proof.Gen.Kernel
import proofs.«151516_j7318624273023_1_alg».proof.Proof.Gen.Kernel.Skeleton
import proofs.«151516_j7318624273023_1_alg».proof.Proof.Gen.Kernel.Launch
import proofs.«151516_j7318624273023_1_alg».proof.Proof.Gen.Kernel.Points
import proofs.«151516_j7318624273023_1_alg».proof.Proof.Gen.Kernel.Frame
import proofs.«151516_j7318624273023_1_alg».proof.Proof.Gen.KernelIdeal
import proofs.«151516_j7318624273023_1_alg».proof.Proof.Gen.KernelIdeal.Skeleton
import proofs.«151516_j7318624273023_1_alg».proof.Proof.Gen.KernelIdeal.Launch
import proofs.«151516_j7318624273023_1_alg».proof.Proof.Gen.KernelIdeal.Points
import proofs.«151516_j7318624273023_1_alg».proof.Proof.Gen.KernelIdeal.Frame
import proofs.«151516_j7318624273023_1_alg».proof.Proof.Gen.ReferenceIdeal
import proofs.«151516_j7318624273023_1_alg».proof.Proof.Gen.ReferenceIdeal.Run
import proofs.«151516_j7318624273023_1_alg».proof.Proof.Gen.ReferenceIdeal.Read
import proofs.«151516_j7318624273023_1_alg».proof.Proof.Gen.Pre_finite_inputs
import proofs.«151516_j7318624273023_1_alg».proof.Proof.RefValue
import proofs.«151516_j7318624273023_1_alg».proof.Proof.KernelValue
import Idealize.ShloMosaic.Adequacy
import Idealize.ShloMosaic.Init

noncomputable section

namespace Cert.Proof

open Idealize.ShloMosaic Idealize.ShloMosaic.TcCoe Idealize.SL.Sem

/-- The reference's recurrent-term stage is the kernel program's host expression for it: the same operations of the
    same three arrays. -/
theorem uh_eq (ph : FVec Ideal Cert.KernelIdeal.S64x512 .f32) (u : FVec Ideal Cert.KernelIdeal.S512x512 .f32)
    (hb : FVec Ideal Cert.KernelIdeal.S512 .f32) :
    Cert.ReferenceIdeal.Read.val_main_v8 (F := Ideal) ph u hb = Cert.Rnn.Kernel.uhOf ph u hb := rfl

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the cell function of the argument arrays in the first result and its last time step in the
    second. -/
theorem algebraic : Cert.algebraic_KernelIdeal_ReferenceIdeal := by
  intro m ρ m' ρ' _ hagree
  refine ⟨fun c => Cert.Rnn.Kernel.out m c, fun c => Cert.Rnn.Kernel.lastStep (Cert.Rnn.Kernel.out m c),
    Cert.Rnn.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.Rnn.Ref.out_eq, uh_eq,
      (hagree c).1, (hagree c).2.1, (hagree c).2.2.1, (hagree c).2.2.2.1, (hagree c).2.2.2.2.1, (hagree c).2.2.2.2.2]
    rfl
  · show Cert.Rnn.Kernel.lastStep _ = _
    refine congrArg Cert.Rnn.Kernel.lastStep ?_
    rw [Cert.ReferenceIdeal.Read.val_main_v12_eq, Cert.Rnn.Ref.out_eq, uh_eq,
      (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
